-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S256x64 : Shape := ⟨2, ![256, 64]⟩
abbrev S64x64 : Shape := ⟨2, ![64, 64]⟩
abbrev S256x1x64 : Shape := ⟨3, ![256, 1, 64]⟩
abbrev S1x64x64 : Shape := ⟨3, ![1, 64, 64]⟩
abbrev S256x64x64 : Shape := ⟨3, ![256, 64, 64]⟩
abbrev S2048x1x64 : Shape := ⟨3, ![2048, 1, 64]⟩

abbrev nBuf : Space → Nat
  | .hbm => 4
  | .vmem => 8
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x1x64, .f32⟩
  | .local _ .vmem, ⟨0, _⟩ => ⟨S256x64, .f32⟩
  | .local _ .vmem, ⟨1, _⟩ => ⟨S256x64, .f32⟩
  | .local _ .vmem, ⟨2, _⟩ => ⟨S64x64, .f32⟩
  | .local _ .vmem, ⟨3, _⟩ => ⟨S64x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x1x64 : S256x64.ShapeCasts S256x1x64
  inb_S64x64_S64x64_0_0 : ∀ a, (![0, 0] : Fin 2 → Nat) a + S64x64.size a ≤ S64x64.size a
  h_S64x64 : 0 < S64x64.numel
  shapeCasts_S64x64_S1x64x64 : S64x64.ShapeCasts S1x64x64
  broadcasts_S256x1x64_S256x64x64 : S256x1x64.Broadcasts S256x64x64
  broadcasts_S1x64x64_S256x64x64 : S1x64x64.Broadcasts S256x64x64
  reduces_S256x64x64_S256x64 : S256x64x64.Reduces [1] S256x64
  bcast_S2048x64_S2048x1x64_0_2 : S2048x64.BroadcastsInDim S2048x1x64 (![0, 2] : Fin 2 → Fin S2048x1x64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S2048x64.size a
  hwx0_1 : ∀ i : grid0.Coords, EltTy.bits .f32 = 32 ∨ (Rect.block (s := S2048x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x64 : Shape := ⟨2, ![2048, 64]⟩
abbrev S2048x1x1x64 : Shape := ⟨4, ![2048, 1, 1, 64]⟩
abbrev S1x1x2048x64 : Shape := ⟨4, ![1, 1, 2048, 64]⟩
abbrev S2048x1x2048x64 : Shape := ⟨4, ![2048, 1, 2048, 64]⟩
abbrev S_ : Shape := ⟨0, ![]⟩
abbrev S2048x1x64 : Shape := ⟨3, ![2048, 1, 64]⟩

abbrev nBuf : Space → Nat
  | .hbm => 18
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x1x1x64, .f32⟩
  | .hbm, ⟨3, _⟩ => ⟨S1x1x2048x64, .f32⟩
  | .hbm, ⟨4, _⟩ => ⟨S2048x1x2048x64, .f32⟩
  | .hbm, ⟨5, _⟩ => ⟨S2048x1x2048x64, .f32⟩
  | .hbm, ⟨6, _⟩ => ⟨S2048x1x2048x64, .f32⟩
  | .hbm, ⟨7, _⟩ => ⟨S_, .f32⟩
  | .hbm, ⟨8, _⟩ => ⟨S2048x1x64, .f32⟩
  | .hbm, ⟨9, _⟩ => ⟨S2048x1x2048x64, .f32⟩
  | .hbm, ⟨10, _⟩ => ⟨S2048x1x2048x64, .f32⟩
  | .hbm, ⟨11, _⟩ => ⟨S2048x1x2048x64, .f32⟩
  | .hbm, ⟨12, _⟩ => ⟨S_, .f32⟩
  | .hbm, ⟨13, _⟩ => ⟨S2048x1x64, .f32⟩
  | .hbm, ⟨14, _⟩ => ⟨S_, .f32⟩
  | .hbm, ⟨15, _⟩ => ⟨S2048x1x64, .f32⟩
  | .hbm, ⟨16, _⟩ => ⟨S2048x1x64, .f32⟩
  | .hbm, ⟨17, _⟩ => ⟨S2048x1x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S2048x64_S2048x1x1x64_0_3 : S2048x64.BroadcastsInDim S2048x1x1x64 (![0, 3] : Fin 2 → Fin S2048x1x1x64.rank)
  bcast_S2048x64_S1x1x2048x64_2_3 : S2048x64.BroadcastsInDim S1x1x2048x64 (![2, 3] : Fin 2 → Fin S1x1x2048x64.rank)
  bcast_S2048x1x1x64_S2048x1x2048x64_0_1_2_3 : S2048x1x1x64.BroadcastsInDim S2048x1x2048x64 (![0, 1, 2, 3] : Fin 4 → Fin S2048x1x2048x64.rank)
  bcast_S1x1x2048x64_S2048x1x2048x64_0_1_2_3 : S1x1x2048x64.BroadcastsInDim S2048x1x2048x64 (![0, 1, 2, 3] : Fin 4 → Fin S2048x1x2048x64.rank)
  reducesTo_S2048x1x2048x64_S2048x1x64_d2 : S2048x1x2048x64.ReducesTo [2] S2048x1x64
  h_S_ : 0 < S_.numel
  bcast_S_S2048x1x64 : S_.BroadcastsInDim S2048x1x64 (![] : Fin 0 → Fin S2048x1x64.rank)

variable [Facts₀]

class Facts : Prop extends Facts₀ where

variable [Facts]
-- ==== Proof.Pieces.lean ====
/-
  What one grid point of the kernel leaves behind, as values. The body keeps two [256, 64] accumulators across the 32
  points of a row tile: `num` (sums of minima) and `den` (sums of maxima). Read off the stores the body's run found:

    first point of a row tile   num ← step_min x y 0      den ← step_max x y 0           (the accumulators are zeroed, then updated)
    any later point             num ← step_min x y num    den ← step_max x y den
    last point, in addition     out ← quot (step_min x y num) (step_max x y den)

  where `x` is the point's [256, 64] block of the first argument, `y` its [64, 64] block of the second,
  `step_min` / `step_max` are the body's update payloads (`k0_pay5` / `k0_pay6`), the zero block is `k0_pay1` / `k0_pay2`,
  and `quot` is the closing payload `k0_pay7`. Every store covers its whole buffer, so what a buffer holds afterwards is
  the payload of its last store, and a load after a store in the same body reads that payload back. Stated at any float instance.
-/
import proofs.«128671_j25718264169371_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- First point of a row tile: the sums of minima restart from the zero block. -/
theorem num_first (c : Dev nD) (i : grid0.Coords) (a2 : Memref sig .tc .vmem S256x64 .f32) (h2 : a2.IsWhole) (a3 : Memref sig .tc .vmem S64x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (hc0 : cond0_0 i) (hc1 : ¬cond0_1 i)
    (x0 : Vec F S256x64 .f32) (x1 : Vec F S64x64 .f32) :
    sout0_A_0 c i a2 h2 a3 h3 a4 h4 a5 h5 a6 h6 hc0 hc1 x0 x1 = k0_pay5 x0 x1 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S256x64) hz]
  simp only [View.readCov_unit_zero (S := S256x64) _ hz, View.readAt_eq_ld, h2.read_unread, h3.read_unread, h5.read_unread, h6.read_unread,
    View.ld_unit_zero (S := S256x64) hz, View.ld_unit_zero (S := S64x64) hz]

/-- First point of a row tile: the sums of maxima restart from the zero block. -/
theorem den_first (c : Dev nD) (i : grid0.Coords) (a2 : Memref sig .tc .vmem S256x64 .f32) (h2 : a2.IsWhole) (a3 : Memref sig .tc .vmem S64x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (hc0 : cond0_0 i) (hc1 : ¬cond0_1 i)
    (x0 : Vec F S256x64 .f32) (x1 : Vec F S64x64 .f32) :
    sout0_A_1 c i a2 h2 a3 h3 a4 h4 a5 h5 a6 h6 hc0 hc1 x0 x1 = k0_pay6 x0 x1 (k0_pay2 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S256x64) hz]
  simp only [View.readCov_unit_zero (S := S256x64) _ hz, View.readAt_eq_ld, h2.read_unread, h3.read_unread, h5.read_unread, h6.read_unread,
    View.ld_unit_zero (S := S256x64) hz, View.ld_unit_zero (S := S64x64) hz]

/-- A middle point: the sums of minima grow by this point's tile. -/
theorem num_mid (c : Dev nD) (i : grid0.Coords) (a2 : Memref sig .tc .vmem S256x64 .f32) (h2 : a2.IsWhole) (a3 : Memref sig .tc .vmem S64x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (hc0 : ¬cond0_0 i) (hc1 : ¬cond0_1 i)
    (x0 : Vec F S256x64 .f32) (x1 : Vec F S64x64 .f32) (xs0 xs1 : Vec F S256x64 .f32) :
    sout0_B_0 c i a2 h2 a3 h3 a4 h4 a5 h5 a6 h6 hc0 hc1 x0 x1 xs0 xs1 = k0_pay5 x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz]
  simp only [View.readCov_unit_zero (S := S256x64) _ hz, View.readAt_eq_ld, h2.read_unread, h3.read_unread, h5.read_unread, h6.read_unread,
    View.ld_unit_zero (S := S256x64) hz, View.ld_unit_zero (S := S64x64) hz]

/-- A middle point: the sums of maxima grow by this point's tile. -/
theorem den_mid (c : Dev nD) (i : grid0.Coords) (a2 : Memref sig .tc .vmem S256x64 .f32) (h2 : a2.IsWhole) (a3 : Memref sig .tc .vmem S64x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (hc0 : ¬cond0_0 i) (hc1 : ¬cond0_1 i)
    (x0 : Vec F S256x64 .f32) (x1 : Vec F S64x64 .f32) (xs0 xs1 : Vec F S256x64 .f32) :
    sout0_B_1 c i a2 h2 a3 h3 a4 h4 a5 h5 a6 h6 hc0 hc1 x0 x1 xs0 xs1 = k0_pay6 x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz]
  simp only [View.readCov_unit_zero (S := S256x64) _ hz, View.readAt_eq_ld, h2.read_unread, h3.read_unread, h5.read_unread, h6.read_unread,
    View.ld_unit_zero (S := S256x64) hz, View.ld_unit_zero (S := S64x64) hz]

/-- The last point of a row tile updates the sums of minima like a middle point, -/
theorem num_last (c : Dev nD) (i : grid0.Coords) (a2 : Memref sig .tc .vmem S256x64 .f32) (h2 : a2.IsWhole) (a3 : Memref sig .tc .vmem S64x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (hc0 : ¬cond0_0 i) (hc1 : cond0_1 i)
    (x0 : Vec F S256x64 .f32) (x1 : Vec F S64x64 .f32) (xs0 xs1 : Vec F S256x64 .f32) :
    sout0_C_0 c i a2 h2 a3 h3 a4 h4 a5 h5 a6 h6 hc0 hc1 x0 x1 xs0 xs1 = k0_pay5 x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz]
  simp only [View.readCov_unit_zero (S := S256x64) _ hz, View.readAt_eq_ld, h2.read_unread, h3.read_unread, h5.read_unread, h6.read_unread,
    View.ld_unit_zero (S := S256x64) hz, View.ld_unit_zero (S := S64x64) hz]

/-- and the sums of maxima, -/
theorem den_last (c : Dev nD) (i : grid0.Coords) (a2 : Memref sig .tc .vmem S256x64 .f32) (h2 : a2.IsWhole) (a3 : Memref sig .tc .vmem S64x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (hc0 : ¬cond0_0 i) (hc1 : cond0_1 i)
    (x0 : Vec F S256x64 .f32) (x1 : Vec F S64x64 .f32) (xs0 xs1 : Vec F S256x64 .f32) :
    sout0_C_1 c i a2 h2 a3 h3 a4 h4 a5 h5 a6 h6 hc0 hc1 x0 x1 xs0 xs1 = k0_pay6 x0 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz]
  simp only [View.readCov_unit_zero (S := S256x64) _ hz, View.readAt_eq_ld, h2.read_unread, h3.read_unread, h5.read_unread, h6.read_unread,
    View.ld_unit_zero (S := S256x64) hz, View.ld_unit_zero (S := S64x64) hz]

/-- and then stores the quotient of the two updated accumulators into the output block. -/
theorem out_last (c : Dev nD) (i : grid0.Coords) (a2 : Memref sig .tc .vmem S256x64 .f32) (h2 : a2.IsWhole) (a3 : Memref sig .tc .vmem S64x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (hc0 : ¬cond0_0 i) (hc1 : cond0_1 i)
    (x0 : Vec F S256x64 .f32) (x1 : Vec F S64x64 .f32) (xs0 xs1 : Vec F S256x64 .f32) :
    out0_C_2 c i a2 h2 a3 h3 a4 h4 a5 h5 a6 h6 hc0 hc1 x0 x1 xs0 xs1 = k0_pay7 (k0_pay5 x0 x1 xs0) (k0_pay6 x0 x1 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz]
  simp only [View.readCov_unit_zero (S := S256x64) _ hz, View.readAt_eq_ld, h2.read_unread, h3.read_unread, h5.read_unread, h6.read_unread,
    View.ld_unit_zero (S := S256x64) hz, View.ld_unit_zero (S := S64x64) hz]

end Cert.KernelIdeal.Tile

end
-- ==== Proof.AtPoint.lean ====
/-
  The accumulators point by point. Along the grid's 256 points (8 row tiles of `x`, each visited with the 32 tiles of
  `y` in turn) write `num n`, `den n` for what the two accumulators hold after point `n` and `out n` for the output
  block's buffer. With `x n`, `y n` the blocks the point reads:

      n ≡ 0 (mod 32)      num n = step_min (x n) (y n) 0              den n = step_max (x n) (y n) 0
      otherwise           num n = step_min (x n) (y n) (num (n-1))    den n = step_max (x n) (y n) (den (n-1))
      n ≡ 31 (mod 32)     out n = quot (num n) (den n)

  (the last line because the closing quotient reads back the two accumulators the same point has just updated).
  Stated at any float instance.
-/
import proofs.«128671_j25718264169371_1_alg».proof.Proof.Pieces

noncomputable section

open Idealize.ShloMosaic Idealize.ShloMosaic.TcCoe Idealize.SL.Sem

namespace Cert.KernelIdeal.Tile

open Cert.KernelIdeal Cert.KernelIdeal.Gen

variable {F : FTy → Type} [FloatOps F]
variable (m : (ℓ : Loc nD τ sig) → Buf (Elt F) ℓ)

/-- The blocks point `t` reads: 256 rows of the first argument, 64 rows of the second. -/
abbrev xblk (c : Dev nD) (t : Fin cfg0.N) : Vec F S256x64 .f32 := iblk m c 0 t
abbrev yblk (c : Dev nD) (t : Fin cfg0.N) : Vec F S64x64 .f32 := iblk m c 1 t

/-- The accumulators and the output block's buffer after point `n`. -/
abbrev numAt (c : Dev nD) (n : ℕ) (hn : n < cfg0.N) : Vec F S256x64 .f32 := (outsAt0 m c n hn).2.1
abbrev denAt (c : Dev nD) (n : ℕ) (hn : n < cfg0.N) : Vec F S256x64 .f32 := (outsAt0 m c n hn).2.2
abbrev outAt (c : Dev nD) (n : ℕ) (hn : n < cfg0.N) : Vec F S256x64 .f32 := (outsAt0 m c n hn).1

theorem prev_lt (t : Fin cfg0.N) : t.val - 1 < cfg0.N := Nat.lt_of_le_of_lt (Nat.sub_le _ _) t.isLt

/-- At the first point of a row tile the sums of minima restart. -/
theorem numAt_first (c : Dev nD) (t : Fin cfg0.N) (h0 : t.val % 32 = 0) :
    numAt m c t.val t.isLt = k0_pay5 (xblk m c t) (yblk m c t) (k0_pay1 (F := F)) := by
  have h1 : ¬t.val % 32 = 31 := by omega
  unfold numAt
  rw [outsAt0_A m c t h0 h1]
  dsimp only
  exact num_first c (grid0.coords t) (ms0_0 t) (hs0_0 t) (ms0_1 t) (hs0_1 t) (ms0_2 t) (hs0_2 t) scM0_0 (Memref.isWhole_whole _) scM0_1 (Memref.isWhole_whole _)
    ((hcond0_0 t).mpr h0) (fun h => h1 ((hcond0_1 t).mp h)) (iblk m c 0 t) (iblk m c 1 t)

/-- And the sums of maxima. -/
theorem denAt_first (c : Dev nD) (t : Fin cfg0.N) (h0 : t.val % 32 = 0) :
    denAt m c t.val t.isLt = k0_pay6 (xblk m c t) (yblk m c t) (k0_pay2 (F := F)) := by
  have h1 : ¬t.val % 32 = 31 := by omega
  unfold denAt
  rw [outsAt0_A m c t h0 h1]
  dsimp only
  exact den_first c (grid0.coords t) (ms0_0 t) (hs0_0 t) (ms0_1 t) (hs0_1 t) (ms0_2 t) (hs0_2 t) scM0_0 (Memref.isWhole_whole _) scM0_1 (Memref.isWhole_whole _)
    ((hcond0_0 t).mpr h0) (fun h => h1 ((hcond0_1 t).mp h)) (iblk m c 0 t) (iblk m c 1 t)

/-- At every other point the sums of minima grow from what the point before left. -/
theorem numAt_next (c : Dev nD) (t : Fin cfg0.N) (h0 : ¬t.val % 32 = 0) :
    numAt m c t.val t.isLt = k0_pay5 (xblk m c t) (yblk m c t) (numAt m c (t.val - 1) (prev_lt t)) := by
  unfold numAt
  by_cases h1 : t.val % 32 = 31
  · rw [outsAt0_C m c t h0 h1]
    dsimp only
    exact num_last c (grid0.coords t) (ms0_0 t) (hs0_0 t) (ms0_1 t) (hs0_1 t) (ms0_2 t) (hs0_2 t) scM0_0 (Memref.isWhole_whole _) scM0_1 (Memref.isWhole_whole _)
      (fun h => h0 ((hcond0_0 t).mp h)) ((hcond0_1 t).mpr h1) (iblk m c 0 t) (iblk m c 1 t)
      (outsAt0 m c (t.val - 1) (prev_lt t)).2.1 (outsAt0 m c (t.val - 1) (prev_lt t)).2.2
  · rw [outsAt0_B m c t h0 h1]
    dsimp only
    exact num_mid c (grid0.coords t) (ms0_0 t) (hs0_0 t) (ms0_1 t) (hs0_1 t) (ms0_2 t) (hs0_2 t) scM0_0 (Memref.isWhole_whole _) scM0_1 (Memref.isWhole_whole _)
      (fun h => h0 ((hcond0_0 t).mp h)) (fun h => h1 ((hcond0_1 t).mp h)) (iblk m c 0 t) (iblk m c 1 t)
      (outsAt0 m c (t.val - 1) (prev_lt t)).2.1 (outsAt0 m c (t.val - 1) (prev_lt t)).2.2

/-- And the sums of maxima. -/
theorem denAt_next (c : Dev nD) (t : Fin cfg0.N) (h0 : ¬t.val % 32 = 0) :
    denAt m c t.val t.isLt = k0_pay6 (xblk m c t) (yblk m c t) (denAt m c (t.val - 1) (prev_lt t)) := by
  unfold denAt
  by_cases h1 : t.val % 32 = 31
  · rw [outsAt0_C m c t h0 h1]
    dsimp only
    exact den_last c (grid0.coords t) (ms0_0 t) (hs0_0 t) (ms0_1 t) (hs0_1 t) (ms0_2 t) (hs0_2 t) scM0_0 (Memref.isWhole_whole _) scM0_1 (Memref.isWhole_whole _)
      (fun h => h0 ((hcond0_0 t).mp h)) ((hcond0_1 t).mpr h1) (iblk m c 0 t) (iblk m c 1 t)
      (outsAt0 m c (t.val - 1) (prev_lt t)).2.1 (outsAt0 m c (t.val - 1) (prev_lt t)).2.2
  · rw [outsAt0_B m c t h0 h1]
    dsimp only
    exact den_mid c (grid0.coords t) (ms0_0 t) (hs0_0 t) (ms0_1 t) (hs0_1 t) (ms0_2 t) (hs0_2 t) scM0_0 (Memref.isWhole_whole _) scM0_1 (Memref.isWhole_whole _)
      (fun h => h0 ((hcond0_0 t).mp h)) (fun h => h1 ((hcond0_1 t).mp h)) (iblk m c 0 t) (iblk m c 1 t)
      (outsAt0 m c (t.val - 1) (prev_lt t)).2.1 (outsAt0 m c (t.val - 1) (prev_lt t)).2.2

/-- At the last point of a row tile the output block is the quotient of the accumulators as that point leaves them. -/
theorem outAt_last (c : Dev nD) (t : Fin cfg0.N) (h1 : t.val % 32 = 31) :
    outAt m c t.val t.isLt = k0_pay7 (numAt m c t.val t.isLt) (denAt m c t.val t.isLt) := by
  have h0 : ¬t.val % 32 = 0 := by omega
  rw [numAt_next m c t h0, denAt_next m c t h0]
  unfold outAt numAt denAt
  rw [outsAt0_C m c t h0 h1]
  dsimp only
  exact out_last c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) ((hcond0_1 t).mpr h1) (iblk m c 0 t) (iblk m c 1 t)
    (outsAt0 m c (t.val - 1) (prev_lt t)).2.1 (outsAt0 m c (t.val - 1) (prev_lt t)).2.2

end Cert.KernelIdeal.Tile

end
-- ==== Proof.Payload.lean ====
/-
  The body's payloads read at one index, over the extended reals. With `x` a [256, 64] block of the first argument,
  `y` a [64, 64] block of the second and `acc` a [256, 64] accumulator, at row `r` and lane `d`:

      step_min x y acc (r, d) = acc (r, d) + ∑ₖ min (x (r, d)) (y (k, d))          k over the 64 rows of the tile
      step_max x y acc (r, d) = acc (r, d) + ∑ₖ max (x (r, d)) (y (k, d))
      quot num den (r, d)     = num (r, d) / (den (r, d) + ε)
      zero (r, d)             = 0

  The body forms the [256, 64, 64] cube of all (row of x, row of y, lane) triples by viewing `x` as [256, 1, 64] and
  `y` as [1, 64, 64] and broadcasting both; the cube's entry at (r, k, d) therefore pairs `x (r, d)` with `y (k, d)`, and
  the lane reduction over the middle axis is the sum over `k`. A change of shape that keeps the row-major order reads
  the same entry.
-/
import proofs.«128671_j25718264169371_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen

/-- The [256, 1, 64] view of `x`, broadcast along the tile's rows: entry (r, k, d) is `x (r, d)`. -/
theorem xcube_apply (x : FVec Ideal S256x64 .f32) (r : Fin 256) (k d : Fin 64) :
    broadcastTo S256x64x64 (shapeCast S256x1x64 x shapeCasts_S256x64_S256x1x64) broadcasts_S256x1x64_S256x64x64 (ix3 r k d)
      = x (ix2 r d) := by
  refine (broadcastTo_apply _ broadcasts_S256x1x64_S256x64x64 (ix3 r k d) (ix3 r (0 : Fin 1) d) fun a => ?_).trans ?_
  · match a with
    | ⟨0, _⟩ => show r.val = if (256 : ℕ) = 1 then 0 else r.val; rw [if_neg (by decide)]
    | ⟨1, _⟩ => show 0 = if (1 : ℕ) = 1 then 0 else k.val; rw [if_pos rfl]
    | ⟨2, _⟩ => show d.val = if (64 : ℕ) = 1 then 0 else d.val; rw [if_neg (by decide)]
  · exact shapeCast_apply x _ (ix3 r (0 : Fin 1) d) (ix2 r d) (by
      rw [Shape.rowMajor_val_two, Shape.rowMajor_val_three]
      show r.val * 64 + d.val = (r.val * 1 + 0) * 64 + d.val
      omega)

/-- The [1, 64, 64] view of `y`, broadcast along `x`'s rows: entry (r, k, d) is `y (k, d)`. -/
theorem ycube_apply (y : FVec Ideal S64x64 .f32) (r : Fin 256) (k d : Fin 64) :
    broadcastTo S256x64x64 (shapeCast S1x64x64 y shapeCasts_S64x64_S1x64x64) broadcasts_S1x64x64_S256x64x64 (ix3 r k d)
      = y (ix2 k d) := by
  refine (broadcastTo_apply _ broadcasts_S1x64x64_S256x64x64 (ix3 r k d) (ix3 (0 : Fin 1) k d) fun a => ?_).trans ?_
  · match a with
    | ⟨0, _⟩ => show 0 = if (1 : ℕ) = 1 then 0 else r.val; rw [if_pos rfl]
    | ⟨1, _⟩ => show k.val = if (64 : ℕ) = 1 then 0 else k.val; rw [if_neg (by decide)]
    | ⟨2, _⟩ => show d.val = if (64 : ℕ) = 1 then 0 else d.val; rw [if_neg (by decide)]
  · exact shapeCast_ab_1ab_apply y _ (0 : Fin 1) k d

/-- The index the reduction over the middle axis inserts `k` at, by coordinates. -/
theorem lift_mid (r : Fin 256) (k d : Fin 64) :
    reduces_S256x64x64_S256x64.lift (ix2 r d) k = ix3 r k d := by
  funext a
  apply Fin.ext
  match a with
  | ⟨0, _⟩ => rfl
  | ⟨1, _⟩ => rfl
  | ⟨2, _⟩ => rfl

/-- The sum over the middle axis of a [256, 64, 64] cube, at (r, d). -/
theorem midSum_apply (v : FVec Ideal S256x64x64 .f32) (r : Fin 256) (d : Fin 64) :
    multiReduction .add [1] S256x64 v 0x00000000#32 reduces_S256x64x64_S256x64 (.inl rfl) rfl (ix2 r d)
      = ∑ k : Fin 64, v (ix3 r k d) := by
  refine (Ideal.multiReduction_add_single v _ reduces_S256x64x64_S256x64 (.inl rfl) rfl (ix2 r d)).trans ?_
  exact Finset.sum_congr rfl fun k _ => congrArg v (lift_mid r k d)

/-- One tile's minima added to the accumulator. -/
theorem stepMin_apply (x acc : FVec Ideal S256x64 .f32) (y : FVec Ideal S64x64 .f32) (r : Fin 256) (d : Fin 64) :
    k0_pay5 (F := Ideal) x y acc (ix2 r d) = acc (ix2 r d) + ∑ k : Fin 64, min (x (ix2 r d)) (y (ix2 k d)) := by
  unfold k0_pay5 k0_pay3 k0_pay4
  dsimp only
  refine (congrFun (shapeCast_self _ _) (ix2 r d)).trans ?_
  refine congrArg (acc (ix2 r d) + ·) ?_
  refine (midSum_apply _ r d).trans ?_
  exact Finset.sum_congr rfl fun k _ => congrArg₂ min (xcube_apply x r k d) (ycube_apply y r k d)

/-- One tile's maxima added to the accumulator. -/
theorem stepMax_apply (x acc : FVec Ideal S256x64 .f32) (y : FVec Ideal S64x64 .f32) (r : Fin 256) (d : Fin 64) :
    k0_pay6 (F := Ideal) x y acc (ix2 r d) = acc (ix2 r d) + ∑ k : Fin 64, max (x (ix2 r d)) (y (ix2 k d)) := by
  unfold k0_pay6 k0_pay3 k0_pay4
  dsimp only
  refine (congrFun (shapeCast_self _ _) (ix2 r d)).trans ?_
  refine congrArg (acc (ix2 r d) + ·) ?_
  refine (midSum_apply _ r d).trans ?_
  exact Finset.sum_congr rfl fun k _ => congrArg₂ max (xcube_apply x r k d) (ycube_apply y r k d)

/-- The closing quotient. -/
theorem quot_apply (num den : FVec Ideal S256x64 .f32) (j : S256x64.Idx) :
    k0_pay7 (F := Ideal) num den j = Ideal.div (num j) (den j + Ideal.ofBits .f32 0x322BCC77#32) := rfl

/-- The two zero blocks. -/
theorem zeroNum_apply (j : S256x64.Idx) : k0_pay1 (F := Ideal) j = 0 := by
  unfold k0_pay1
  refine (congrFun (shapeCast_self _ _) j).trans ?_
  exact Ideal.ofBits_zero_f32

theorem zeroDen_apply (j : S256x64.Idx) : k0_pay2 (F := Ideal) j = 0 := by
  unfold k0_pay2
  refine (congrFun (shapeCast_self _ _) j).trans ?_
  exact Ideal.ofBits_zero_f32

end Cert.KernelIdeal.Tile

end
-- ==== Proof.Spec.lean ====
/-
  The Ruzicka similarity of the rows of `x` against all rows of `y`, lane by lane, over the extended reals:

      sim x y (n, d) = (∑ₘ min (x n d) (y m d)) / ((∑ₘ max (x n d) (y m d)) + ε),      m over the 2048 rows of `y`,

  with `ε` the f32 value nearest 1e-8, kept as its binary word (the same word stands on both sides, so it is never
  evaluated), and the quotient the extended reals' `Ideal.div`.

  The sum over the 2048 rows is also reached TILE BY TILE: the sum over the first `64·J` rows plus the sum over the 64
  rows of tile `J` is the sum over the first `64·(J+1)` rows (`upTo_tile`), from the empty sum (`upTo_zero`) to the
  whole one (`upTo_all`). Addition of extended reals is commutative and associative, so nothing here asks the summands
  to be finite.
-/
import Idealize.ShloMosaic.PureOps.Ideal.Laws
import Idealize.ShloMosaic.Lib.ValueIdx

noncomputable section

namespace Ruzicka

open Idealize.ShloMosaic Idealize.ShloMosaic.ValueIdx

/-- The [2048, 64] arrays' index type and the [2048, 1, 64] result's. -/
abbrev Mat : Shape := ⟨2, ![2048, 64]⟩
abbrev Out : Shape := ⟨3, ![2048, 1, 64]⟩

/-- Row `mm` of `y` at lane `d`, read at a natural row number; `0` past the last row (never summed). -/
def rowAt (y : Mat.Idx → EReal) (mm : ℕ) (d : Fin 64) : EReal :=
  if h : mm < 2048 then y (ix2 ⟨mm, h⟩ d) else 0

theorem rowAt_lt (y : Mat.Idx → EReal) (mm : ℕ) (h : mm < 2048) (d : Fin 64) : rowAt y mm d = y (ix2 ⟨mm, h⟩ d) :=
  dif_pos h

/-- `∑` over the first `K` rows `mm` of `y` of `g a (y mm d)`: the running sum a tiled accumulation passes through. -/
def upTo (g : EReal → EReal → EReal) (y : Mat.Idx → EReal) (a : EReal) (d : Fin 64) (K : ℕ) : EReal :=
  ∑ mm ∈ Finset.range K, g a (rowAt y mm d)

theorem upTo_zero (g : EReal → EReal → EReal) (y : Mat.Idx → EReal) (a : EReal) (d : Fin 64) : upTo g y a d 0 = 0 := by
  unfold upTo
  exact Finset.sum_range_zero _

/-- One more tile of 64 rows: rows `64·J … 64·J + 63` added to the sum over the rows before them. -/
theorem upTo_tile (g : EReal → EReal → EReal) (y : Mat.Idx → EReal) (a : EReal) (d : Fin 64) (J : ℕ) (hJ : J < 32) :
    upTo g y a d (64 * J) + ∑ k : Fin 64, g a (y (ix2 ⟨64 * J + k.val, by have := k.isLt; omega⟩ d))
      = upTo g y a d (64 * (J + 1)) := by
  unfold upTo
  rw [show 64 * (J + 1) = 64 * J + 64 from by ring, Finset.sum_range_add]
  refine congrArg (_ + ·) ?_
  rw [Finset.sum_range]
  refine Finset.sum_congr rfl fun k _ => ?_
  rw [rowAt_lt y (64 * J + k.val) (by have := k.isLt; omega)]

/-- All 2048 rows: the sum over `y`'s row index. -/
theorem upTo_all (g : EReal → EReal → EReal) (y : Mat.Idx → EReal) (a : EReal) (d : Fin 64) :
    upTo g y a d 2048 = ∑ mm : Fin 2048, g a (y (ix2 mm d)) := by
  unfold upTo
  rw [Finset.sum_range]
  exact Finset.sum_congr rfl fun k _ => by rw [rowAt_lt y k.val k.isLt]

/-- The ε both programs add to the denominator, as its f32 word. -/
abbrev eps : EReal := Ideal.ofBits .f32 0x322BCC77#32

/-- The similarity at row `n`, lane `d` of the [2048, 64] array the kernel's region writes. -/
def sim2 (x y : Mat.Idx → EReal) : Mat.Idx → EReal := fun i =>
  Ideal.div (upTo min y (x i) (i 1) 2048) (upTo max y (x i) (i 1) 2048 + eps)

/-- The result, [2048, 1, 64]: the same with a unit axis between row and lane. -/
def sim (x y : Mat.Idx → EReal) : Out.Idx → EReal := fun j => sim2 x y (ix2 (j 0) (j 2))

end Ruzicka

end
-- ==== Proof.Running.lean ====
/-
  The accumulators are running sums over the rows of `y`. Point `n` of the grid works on row tile `n / 32` of `x`
  (rows `256·(n/32) …`) and on tile `n % 32` of `y` (rows `64·(n%32) …`). After it, at row `r` of the tile and lane `d`,

      num n (r, d) = ∑ over the first 64·(n%32 + 1) rows mm of y of  min (x (R, d)) (y (mm, d)),        R = 256·(n/32) + r,
      den n (r, d) = the same with max,

  by induction along the grid: at the first point of a row tile the sum restarts from zero and takes the first 64 rows;
  every later point adds the next 64 (`Ruzicka.upTo_tile`). At the last point of a row tile all 2048 rows are in, and the
  output block is the similarity `Ruzicka.sim2` of that row tile.
-/
import proofs.«128671_j25718264169371_1_alg».proof.Proof.AtPoint
import proofs.«128671_j25718264169371_1_alg».proof.Proof.Payload
import proofs.«128671_j25718264169371_1_alg».proof.Proof.Spec

noncomputable section

open Idealize.ShloMosaic Idealize.ShloMosaic.TcCoe Idealize.SL.Sem Idealize.ShloMosaic.ValueIdx

namespace Cert.KernelIdeal.Tile

open Cert.KernelIdeal Cert.KernelIdeal.Gen Ruzicka

variable (m : (ℓ : Loc nD τ sig) → Buf (Elt Ideal) ℓ)

/-- The two argument arrays as the region finds them. -/
abbrev xarr (c : Dev nD) : Mat.Idx → EReal := V m c main_arg0
abbrev yarr (c : Dev nD) : Mat.Idx → EReal := V m c main_arg1

/-- Which block of each array a point works on: `x`'s (and the output's) moves with the outer grid axis, `y`'s with the inner. -/
theorem xidx : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)
theorem yidx : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)

/-- Row `r` of the `x` block at point `t` is row `256·(t/32) + r` of `x`. -/
theorem xblk_apply (c : Dev nD) (t : Fin cfg0.N) (r : Fin 256) (d : Fin 64) (R : Fin 2048)
    (hR : R.val = 256 * (t.val / 32) + r.val) : xblk m c t (ix2 r d) = xarr m c (ix2 R d) := by
  show iblk m c 0 t (ix2 r d) = _
  unfold iblk
  rw [View.read_apply]
  show V m c main_arg0 _ = V m c main_arg0 _
  congr 1
  funext a
  apply Fin.ext
  match a with
  | ⟨0, _⟩ => show win0_0.index t 0 * 256 + 1 * r.val = R.val; rw [(xidx t).1, hR]; omega
  | ⟨1, _⟩ => show win0_0.index t 1 * 64 + 1 * d.val = d.val; rw [(xidx t).2]; omega

/-- Row `k` of the `y` block at point `t` is row `64·(t%32) + k` of `y`. -/
theorem yblk_apply (c : Dev nD) (t : Fin cfg0.N) (k d : Fin 64) :
    yblk m c t (ix2 k d) = yarr m c (ix2 ⟨64 * (t.val % 32) + k.val, by have := k.isLt; omega⟩ d) := by
  show iblk m c 1 t (ix2 k d) = _
  unfold iblk
  rw [View.read_apply]
  show V m c main_arg1 _ = V m c main_arg1 _
  congr 1
  funext a
  apply Fin.ext
  match a with
  | ⟨0, _⟩ => show win0_1.index t 0 * 64 + 1 * k.val = 64 * (t.val % 32) + k.val; rw [(yidx t).1]; omega
  | ⟨1, _⟩ => show win0_1.index t 1 * 64 + 1 * d.val = d.val; rw [(yidx t).2]; omega

/-- One point's contribution: a sum over the rows before tile `t % 32` of `y`, plus that tile, is the sum up to the
    tile's end. (`g` is `min` for the numerator, `max` for the denominator.) -/
theorem tile_step (g : EReal → EReal → EReal) (c : Dev nD) (t : Fin cfg0.N) (r : Fin 256) (d : Fin 64) (R : Fin 2048)
    (hR : R.val = 256 * (t.val / 32) + r.val) (accv : EReal) (K : ℕ) (hK : K = 64 * (t.val % 32))
    (hacc : accv = upTo g (yarr m c) (xarr m c (ix2 R d)) d K) :
    accv + ∑ k : Fin 64, g (xblk m c t (ix2 r d)) (yblk m c t (ix2 k d))
      = upTo g (yarr m c) (xarr m c (ix2 R d)) d (64 * (t.val % 32 + 1)) := by
  subst hK
  rw [hacc, xblk_apply m c t r d R hR]
  have hJ : t.val % 32 < 32 := Nat.mod_lt _ (by decide)
  rw [← upTo_tile g (yarr m c) (xarr m c (ix2 R d)) d (t.val % 32) hJ]
  refine congrArg (_ + ·) (Finset.sum_congr rfl fun k _ => ?_)
  rw [yblk_apply m c t k d]

/-- THE RUNNING SUMS, by induction along the grid. -/
theorem running (c : Dev nD) : ∀ (n : ℕ) (hn : n < cfg0.N) (r : Fin 256) (d : Fin 64) (R : Fin 2048),
    R.val = 256 * (n / 32) + r.val →
      numAt m c n hn (ix2 r d) = upTo min (yarr m c) (xarr m c (ix2 R d)) d (64 * (n % 32 + 1))
      ∧ denAt m c n hn (ix2 r d) = upTo max (yarr m c) (xarr m c (ix2 R d)) d (64 * (n % 32 + 1))
  | 0, hn, r, d, R, hR => by
    have e1 := numAt_first m c ⟨0, hn⟩ rfl
    have e2 := denAt_first m c ⟨0, hn⟩ rfl
    constructor
    · refine (congrFun e1 (ix2 r d)).trans ?_
      refine (stepMin_apply _ _ _ r d).trans ?_
      exact tile_step m min c ⟨0, hn⟩ r d R hR _ 0 rfl ((zeroNum_apply _).trans (upTo_zero _ _ _ _).symm)
    · refine (congrFun e2 (ix2 r d)).trans ?_
      refine (stepMax_apply _ _ _ r d).trans ?_
      exact tile_step m max c ⟨0, hn⟩ r d R hR _ 0 rfl ((zeroDen_apply _).trans (upTo_zero _ _ _ _).symm)
  | n + 1, hn, r, d, R, hR => by
    by_cases h0 : (n + 1) % 32 = 0
    · have e1 := numAt_first m c ⟨n + 1, hn⟩ h0
      have e2 := denAt_first m c ⟨n + 1, hn⟩ h0
      have hK : 0 = 64 * ((⟨n + 1, hn⟩ : Fin cfg0.N).val % 32) := by show 0 = 64 * ((n + 1) % 32); omega
      constructor
      · refine (congrFun e1 (ix2 r d)).trans ?_
        refine (stepMin_apply _ _ _ r d).trans ?_
        exact tile_step m min c ⟨n + 1, hn⟩ r d R hR _ 0 hK ((zeroNum_apply _).trans (upTo_zero _ _ _ _).symm)
      · refine (congrFun e2 (ix2 r d)).trans ?_
        refine (stepMax_apply _ _ _ r d).trans ?_
        exact tile_step m max c ⟨n + 1, hn⟩ r d R hR _ 0 hK ((zeroDen_apply _).trans (upTo_zero _ _ _ _).symm)
    · have ih := running c n (Nat.lt_of_succ_lt hn) r d R (by omega)
      have e1 : numAt m c (n + 1) hn = k0_pay5 (xblk m c ⟨n + 1, hn⟩) (yblk m c ⟨n + 1, hn⟩) (numAt m c n (Nat.lt_of_succ_lt hn)) :=
        numAt_next m c ⟨n + 1, hn⟩ h0
      have e2 : denAt m c (n + 1) hn = k0_pay6 (xblk m c ⟨n + 1, hn⟩) (yblk m c ⟨n + 1, hn⟩) (denAt m c n (Nat.lt_of_succ_lt hn)) :=
        denAt_next m c ⟨n + 1, hn⟩ h0
      have hK : 64 * (n % 32 + 1) = 64 * ((⟨n + 1, hn⟩ : Fin cfg0.N).val % 32) := by
        show 64 * (n % 32 + 1) = 64 * ((n + 1) % 32); omega
      constructor
      · refine (congrFun e1 (ix2 r d)).trans ?_
        refine (stepMin_apply _ _ _ r d).trans ?_
        exact tile_step m min c ⟨n + 1, hn⟩ r d R hR _ _ hK ih.1
      · refine (congrFun e2 (ix2 r d)).trans ?_
        refine (stepMax_apply _ _ _ r d).trans ?_
        exact tile_step m max c ⟨n + 1, hn⟩ r d R hR _ _ hK ih.2

/-- At the last point of a row tile the output block holds the similarity of that tile's rows. -/
theorem out_value (c : Dev nD) (t : Fin cfg0.N) (h1 : t.val % 32 = 31) (r : Fin 256) (d : Fin 64) (R : Fin 2048)
    (hR : R.val = 256 * (t.val / 32) + r.val) :
    outAt m c t.val t.isLt (ix2 r d) = sim2 (xarr m c) (yarr m c) (ix2 R d) := by
  obtain ⟨hnum, hden⟩ := running m c t.val t.isLt r d R hR
  have hall : 64 * (t.val % 32 + 1) = 2048 := by omega
  rw [hall] at hnum hden
  refine (congrFun (outAt_last m c t h1) (ix2 r d)).trans ?_
  refine (quot_apply _ _ _).trans ?_
  rw [hnum, hden]
  rfl

end Cert.KernelIdeal.Tile

end
-- ==== Proof.Array.lean ====
/-
  From blocks to the result. The region writes its [2048, 64] array one [256, 64] block per row tile, at the last of
  the tile's 32 points; block `n / 32` holds the similarity of rows `256·(n/32) … + 255`, so the eight blocks are the
  eight row tiles of ONE array, `Ruzicka.sim2` of the two arguments, and they cover it (row `R` lies in the block
  written at point `32·(R/256) + 31`). The host line after the region inserts a unit axis between row and lane:
  the result is `Ruzicka.sim`.
-/
import proofs.«128671_j25718264169371_1_alg».proof.Proof.Running

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Ruzicka

variable (m : (ℓ : Loc nD τ sig) → Buf (Elt Ideal) ℓ) (ρ : Dev nD → PrngReg)

/-- What the region's array ends holding: the similarity of every row of `x` against `y`. -/
abbrev region (c : Dev nD) : Buf (Elt Ideal) ((c : Thread nD τ).loc main_v0) := sim2 (xarr m c) (yarr m c)

/-- The output's block moves with the outer grid axis, like `x`'s. -/
theorem oidx : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- The output block after the last point of a row tile, at any index of the block. -/
theorem out_value_idx (c : Dev nD) (t : Fin cfg0.N) (h1 : t.val % 32 = 31) (j : S256x64.Idx) (R : Fin 2048)
    (hR : R.val = 256 * (t.val / 32) + (j 0).val) :
    outAt m c t.val t.isLt j = sim2 (xarr m c) (yarr m c) (ix2 R (j 1)) := by
  exact (congrArg (outAt m c t.val t.isLt) (eq_ix2 j)).trans (out_value m c t h1 (j 0) (j 1) R hR)

/-- WHAT A WRITE-BACK WRITES is its block of `region`. -/
theorem flushed_eq (c : Dev nD) (t : Fin cfg0.N) (hf : (cfg0.win 2).flush t = true) :
    (dats m 0 c).flushed 2 t = ((cfg0.win 2).blk t).view.read (Elt Ideal) (region m c) := by
  have h1 : t.val % 32 = 31 := (flush0_2 t).mp hf
  have hN : t.val < 256 := lt_of_lt_of_eq t.isLt N_0
  show (cfg0.win 2).cut (grid0.coords t) ((dats m 0 c).after 2 t) = _
  rw [after0_2]
  funext j
  rw [View.read_apply]
  have hj0 : (j 0).val < 256 := (j 0).isLt
  show outAt m c t.val t.isLt j = sim2 (xarr m c) (yarr m c) (((cfg0.win 2).blk t).view.emb j)
  rw [out_value_idx m c t h1 j ⟨256 * (t.val / 32) + (j 0).val, by omega⟩ rfl]
  congr 1
  funext a
  apply Fin.ext
  obtain ⟨e0, e1⟩ := oidx t
  match a with
  | ⟨0, _⟩ => show 256 * (t.val / 32) + (j 0).val = win0_2.index t (0 : Fin 2) * 256 + 1 * (j 0).val; rw [e0]; omega
  | ⟨1, _⟩ => show (j 1).val = win0_2.index t (1 : Fin 2) * 64 + 1 * (j 1).val; rw [e1]; omega

/-- An index of the array is in point `t`'s block iff each coordinate is in the block's range on its axis. -/
theorem mem_blk (t : Fin cfg0.N) (i : S2048x64.Idx) :
    i ∈ ((cfg0.win 2).blk t).view.set ↔
      ∀ a : Fin 2, win0_2.index t a * S256x64.size a ≤ (i a).val ∧ (i a).val < win0_2.index t a * S256x64.size a + S256x64.size a := by
  show i ∈ ((View.whole main_v0).slice (win0_2.rect t)).set ↔ _
  rw [View.set_slice_whole, Rect.mem_set_unit]
  exact Iff.rfl

/-- Every index of the array is in the block some write-back writes: that of its row tile's last point. -/
theorem covered (i : S2048x64.Idx) :
    ∃ t : Fin cfg0.N, (cfg0.win 2).flush t = true ∧ i ∈ ((cfg0.win 2).blk t).view.set := by
  have hi0 : (i 0).val < 2048 := (i 0).isLt
  have hi1 : (i 1).val < 64 := (i 1).isLt
  have hN : cfg0.N = 256 := N_0
  have ht : 32 * ((i 0).val / 256) + 31 < cfg0.N := by omega
  obtain ⟨e0, e1⟩ := oidx ⟨32 * ((i 0).val / 256) + 31, ht⟩
  refine ⟨⟨32 * ((i 0).val / 256) + 31, ht⟩, (flush0_2 _).mpr (by show (32 * ((i 0).val / 256) + 31) % 32 = 31; omega), ?_⟩
  rw [mem_blk]
  intro a
  match a with
  | ⟨0, _⟩ =>
    show win0_2.index ⟨32 * ((i 0).val / 256) + 31, ht⟩ (0 : Fin 2) * 256 ≤ (i 0).val
      ∧ (i 0).val < win0_2.index ⟨32 * ((i 0).val / 256) + 31, ht⟩ (0 : Fin 2) * 256 + 256
    rw [e0]
    show (32 * ((i 0).val / 256) + 31) / 32 * 256 ≤ (i 0).val ∧ (i 0).val < (32 * ((i 0).val / 256) + 31) / 32 * 256 + 256
    omega
  | ⟨1, _⟩ =>
    show win0_2.index ⟨32 * ((i 0).val / 256) + 31, ht⟩ (1 : Fin 2) * 64 ≤ (i 1).val
      ∧ (i 1).val < win0_2.index ⟨32 * ((i 0).val / 256) + 31, ht⟩ (1 : Fin 2) * 64 + 64
    rw [e1]
    omega

/-- THE REGION'S ARRAY after the run. -/
theorem final (c : Dev nD) : (dats m 0 c).arrAt 2 cfg0.N = region m c :=
  (dats m 0 c).arrAt_eq_of_cover 2 (region m c) (flushed_eq m c) covered

/-- A unit axis inserted between row and lane. -/
theorem unitAxis_apply (v : S2048x64.Idx → EReal) (j : S2048x1x64.Idx) :
    broadcastInDim S2048x1x64 ![0, 2] bcast_S2048x64_S2048x1x64_0_2 v j = v (ix2 (j 0) (j 2)) :=
  broadcastInDim_apply _ bcast_S2048x64_S2048x1x64_0_2 v j (ix2 (j 0) (j 2)) (fun a => match a with
    | ⟨0, _⟩ => by show (j 0).val = if (2048 : ℕ) = 1 then 0 else (j 0).val; rw [if_neg (by decide)]
    | ⟨1, _⟩ => by show (j 2).val = if (64 : ℕ) = 1 then 0 else (j 2).val; rw [if_neg (by decide)])

/-- THE RESULT: what the host line after the region leaves in @main's result. -/
theorem tail_eq (c : Dev nD) :
    Pipeline.afterTail₀ cfgs (dats m) 0 (V0 m) [hostOps1] c main_v1 = sim (xarr m c) (yarr m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = region m c := (Pipeline.withArrays_arr spec0 launch0.win.arr_inj c _ _ 2).trans (final m c)
  refine (congrArg (broadcastInDim S2048x1x64 ![0, 2] bcast_S2048x64_S2048x1x64_0_2) hw).trans ?_
  funext j
  exact unitAxis_apply _ j

/-- The run, read: @main's result at the similarity of the two arguments, the arguments unchanged. -/
theorem run : θ_run defs (onTc (τ := τ) (main (F := Ideal))) ⟨m, fun _ => 0, ρ⟩ fun r => ∀ c : Dev nD,
      r.2.mem ((c : Thread nD τ).loc main_v1) = sim (xarr m c) (yarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Tile

end
-- ==== Proof.RefValue.lean ====
/-
  The reference computes `Ruzicka.sim`. Its operations, read at an index (r, u, d) of the [2048, 1, 64] result: both
  arguments are broadcast to [2048, 1, 2048, 64], where entry (r, u, mm, d) pairs `x (r, d)` with `y (mm, d)`; the
  elementwise minimum and maximum are summed over the third axis from zero; ε is added to the sum of maxima; the
  quotient is taken. That is `(0 + ∑ₘₘ min …) / ((0 + ∑ₘₘ max …) + ε)`, and `0 + s = s` on the extended reals.
-/
import proofs.«128671_j25718264169371_1_alg».proof.Proof.Gen.ReferenceIdeal.Read
import proofs.«128671_j25718264169371_1_alg».proof.Proof.Spec

noncomputable section

open Idealize.ShloMosaic Idealize.ShloMosaic.ValueIdx

namespace Cert.ReferenceIdeal.RefSpec

open Cert.ReferenceIdeal Cert.ReferenceIdeal.Gen Cert.ReferenceIdeal.Read Ruzicka

/-- Through the two broadcasts, entry (r, u, mm, d) of the first operand is `x (r, d)`, -/
theorem xsrc (i : S2048x1x64.Idx) (k : Fin 2048) :
    idx_main_v0 (idx_main_v2 (idx_main_v5 i k)) = ix2 (i 0) (i 2) :=
  funext fun a => Fin.ext (by match a with | ⟨0, _⟩ => rfl | ⟨1, _⟩ => rfl)

/-- and of the second `y (mm, d)`. -/
theorem ysrc (i : S2048x1x64.Idx) (k : Fin 2048) :
    idx_main_v1 (idx_main_v3 (idx_main_v5 i k)) = ix2 k (i 2) :=
  funext fun a => Fin.ext (by match a with | ⟨0, _⟩ => rfl | ⟨1, _⟩ => rfl)

/-- The same for the operands of the maximum. -/
theorem xsrc' (i : S2048x1x64.Idx) (k : Fin 2048) :
    idx_main_v0 (idx_main_v6 (idx_main_v9 i k)) = ix2 (i 0) (i 2) :=
  funext fun a => Fin.ext (by match a with | ⟨0, _⟩ => rfl | ⟨1, _⟩ => rfl)

theorem ysrc' (i : S2048x1x64.Idx) (k : Fin 2048) :
    idx_main_v1 (idx_main_v7 (idx_main_v9 i k)) = ix2 k (i 2) :=
  funext fun a => Fin.ext (by match a with | ⟨0, _⟩ => rfl | ⟨1, _⟩ => rfl)

/-- THE REFERENCE'S RESULT is the similarity. -/
theorem ref_eq (x y : Mat.Idx → EReal) : val_main_v12 (F := Ideal) x y = sim x y := by
  funext i
  rw [val_main_v12_apply, val_main_v5_apply, val_main_v11_apply, val_main_v9_apply, val_main_v10_apply,
    val_main_cst_1_apply, val_main_cst_apply, val_main_cst_0_apply]
  simp only [val_main_v4_apply, val_main_v8_apply, val_main_v2_apply, val_main_v3_apply, val_main_v6_apply,
    val_main_v7_apply, val_main_v0_apply, val_main_v1_apply, xsrc, ysrc, xsrc', ysrc',
    Ideal.hostDivf_def, Ideal.addf_def, Ideal.minimumf_def, Ideal.maximumf_def, Ideal.ofBits_def, Ideal.ofBits_zero_f32, zero_add]
  exact (congrArg₂ Ideal.div (upTo_all min y (x (ix2 (i 0) (i 2))) (i 2))
    (congrArg (· + eps) (upTo_all max y (x (ix2 (i 0) (i 2))) (i 2)))).symm

end Cert.ReferenceIdeal.RefSpec

end
-- ==== Proof.lean ====
/-
  Ruzicka similarity: for `x`, `y` of shape [2048, 64],

      out (n, 0, d) = (∑ₘ min (x n d) (y m d)) / ((∑ₘ max (x n d) (y m d)) + ε),        m over the 2048 rows of y.

  The kernel walks a grid of 8 × 32 points: row tile `i` of `x` (256 rows) against tile `j` of `y` (64 rows), `j` innermost.
  It keeps the two sums in accumulators, zeroed at `j = 0`, grown by one tile's 64 minima (maxima) per point, and at
  `j = 31` writes the quotient as the row tile's block of the output. The reference broadcasts both arguments to
  [2048, 1, 2048, 64] and sums over the third axis in one reduction. Over the extended reals the two agree because a sum
  over 2048 rows is the sum of its 32 consecutive runs of 64 (addition there is commutative and associative, and `0 + s = s`);
  the ε is the same f32 word on both sides, and the quotient the same function. No step needs the inputs finite.

  The frames of the two kernel programs are the generated ones; the reference's is its generated run with the result
  dropped; the idealization rewrote nothing, so it is preserved trivially.
-/
import proofs.«128671_j25718264169371_1_alg».proof.Defs
import proofs.«128671_j25718264169371_1_alg».proof.Proof.Gen.Kernel
import proofs.«128671_j25718264169371_1_alg».proof.Proof.Gen.Kernel.Skeleton
import proofs.«128671_j25718264169371_1_alg».proof.Proof.Gen.Kernel.Launch
import proofs.«128671_j25718264169371_1_alg».proof.Proof.Gen.Kernel.Points
import proofs.«128671_j25718264169371_1_alg».proof.Proof.Gen.Kernel.Frame
import proofs.«128671_j25718264169371_1_alg».proof.Proof.Gen.KernelIdeal
import proofs.«128671_j25718264169371_1_alg».proof.Proof.Gen.KernelIdeal.Skeleton
import proofs.«128671_j25718264169371_1_alg».proof.Proof.Gen.KernelIdeal.Launch
import proofs.«128671_j25718264169371_1_alg».proof.Proof.Gen.KernelIdeal.Points
import proofs.«128671_j25718264169371_1_alg».proof.Proof.Gen.KernelIdeal.Frame
import proofs.«128671_j25718264169371_1_alg».proof.Proof.Gen.ReferenceIdeal
import proofs.«128671_j25718264169371_1_alg».proof.Proof.Gen.ReferenceIdeal.Run
import proofs.«128671_j25718264169371_1_alg».proof.Proof.Gen.ReferenceIdeal.Read
import proofs.«128671_j25718264169371_1_alg».proof.Proof.Gen.Pre_finite_inputs
import proofs.«128671_j25718264169371_1_alg».proof.Proof.Array
import proofs.«128671_j25718264169371_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the similarity of the same two arrays: the kernel's tiled running sums reach it
    (`Tile.run`), and the reference's one reduction is it (`RefSpec.ref_eq`). -/
theorem algebraic : Cert.algebraic_KernelIdeal_ReferenceIdeal := by
  intro m ρ m' ρ' _ hagree
  refine ⟨fun c => Ruzicka.sim (Cert.KernelIdeal.Tile.xarr m c) (Cert.KernelIdeal.Tile.yarr m c),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.RefSpec.ref_eq _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
